-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 101
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x128, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x1, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x64, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x64, .f32⟩
  | .hbm, ⟨73, _⟩ => ⟨S850000x1, .f32⟩
  | .hbm, ⟨74, _⟩ => ⟨S850000x64, .f32⟩
  | .hbm, ⟨75, _⟩ => ⟨S850000x64, .f32⟩
  | .hbm, ⟨76, _⟩ => ⟨S_, .f32⟩
  | .hbm, ⟨77, _⟩ => ⟨S50000x64, .f32⟩
  | .hbm, ⟨78, _⟩ => ⟨S850000x1, .i32⟩
  | .hbm, ⟨79, _⟩ => ⟨S50000x64, .f32⟩
  | .hbm, ⟨80, _⟩ => ⟨S1x64, .f32⟩
  | .hbm, ⟨81, _⟩ => ⟨S50000x64, .f32⟩
  | .hbm, ⟨82, _⟩ => ⟨S50000x64, .f32⟩
  | .hbm, ⟨83, _⟩ => ⟨S_, .i32⟩
  | .hbm, ⟨84, _⟩ => ⟨S850000, .i32⟩
  | .hbm, ⟨85, _⟩ => ⟨S850000, .i1⟩
  | .hbm, ⟨86, _⟩ => ⟨S_, .i32⟩
  | .hbm, ⟨87, _⟩ => ⟨S850000, .i32⟩
  | .hbm, ⟨88, _⟩ => ⟨S850000, .i32⟩
  | .hbm, ⟨89, _⟩ => ⟨S850000, .i32⟩
  | .hbm, ⟨90, _⟩ => ⟨S850000x1, .i32⟩
  | .hbm, ⟨91, _⟩ => ⟨S850000x64, .f32⟩
  | .hbm, ⟨92, _⟩ => ⟨S850000x1, .f32⟩
  | .hbm, ⟨93, _⟩ => ⟨S850000x64, .f32⟩
  | .hbm, ⟨94, _⟩ => ⟨S850000x64, .f32⟩
  | .hbm, ⟨95, _⟩ => ⟨S_, .f32⟩
  | .hbm, ⟨96, _⟩ => ⟨S50000x64, .f32⟩
  | .hbm, ⟨97, _⟩ => ⟨S850000x1, .i32⟩
  | .hbm, ⟨98, _⟩ => ⟨S50000x64, .f32⟩
  | .hbm, ⟨99, _⟩ => ⟨S1x64, .f32⟩
  | .hbm, ⟨100, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_c_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v44) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 107
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x128, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x1, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x64, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x64, .f32⟩
  | .hbm, ⟨77, _⟩ => ⟨S850000x1, .f32⟩
  | .hbm, ⟨78, _⟩ => ⟨S850000x64, .f32⟩
  | .hbm, ⟨79, _⟩ => ⟨S850000x64, .f32⟩
  | .hbm, ⟨80, _⟩ => ⟨S_, .f32⟩
  | .hbm, ⟨81, _⟩ => ⟨S50000x64, .f32⟩
  | .hbm, ⟨82, _⟩ => ⟨S850000x1, .i32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000x64, .f32⟩
  | .hbm, ⟨97, _⟩ => ⟨S850000x1, .f32⟩
  | .hbm, ⟨98, _⟩ => ⟨S850000x64, .f32⟩
  | .hbm, ⟨99, _⟩ => ⟨S850000x64, .f32⟩
  | .hbm, ⟨100, _⟩ => ⟨S_, .f32⟩
  | .hbm, ⟨101, _⟩ => ⟨S50000x64, .f32⟩
  | .hbm, ⟨102, _⟩ => ⟨S850000x1, .i32⟩
  | .hbm, ⟨103, _⟩ => ⟨S50000x64, .f32⟩
  | .hbm, ⟨104, _⟩ => ⟨S1x64, .f32⟩
  | .hbm, ⟨105, _⟩ => ⟨S50000x64, .f32⟩
  | .hbm, ⟨106, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_11 : Ref sig .tc := ⟨.hbm, 88, rfl⟩
abbrev main_v65 : Ref sig .tc := ⟨.hbm, 89, rfl⟩
abbrev main_v66 : Ref sig .tc := ⟨.hbm, 90, rfl⟩
abbrev main_c_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Kept.lean ====
/-
  What each boundary of @main's walk leaves untouched.  A stretch of host operations changes only the buffers its
  operations write, and a region changes only its own three arrays; so an argument array, the two edge-index
  vectors, the edge weights and a region's finished output can be read at a later boundary as they stood at an
  earlier one.  The facts below are those steps, one boundary at a time, for the buffers later stretches and regions
  read.
-/
import proofs.«178109_j24335284699606_1_alg».proof.Proof.Gen.KernelIdeal.Frame

set_option maxRecDepth 16384

noncomputable section

namespace Cert.KernelIdeal.Kept

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- A stretch of host operations, none of which writes the buffer, leaves the buffer as it was: every operation's
    written buffer is another one. -/
macro "host_keeps" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## After the first stretch: the arguments as launched -/

theorem W1_arg0 (c : Dev nD) : W1 m ρ c (Proc.devRef .tc main_arg0) = m ((c : Thread nD τ).loc main_arg0) :=
  (by host_keeps hostOps0 : StableHlo.after hostOps0 (W0 m ρ c) (Proc.devRef .tc main_arg0) = W0 m ρ c (Proc.devRef .tc main_arg0)).trans rfl
theorem W1_arg2 (c : Dev nD) : W1 m ρ c (Proc.devRef .tc main_arg2) = m ((c : Thread nD τ).loc main_arg2) :=
  (by host_keeps hostOps0 : StableHlo.after hostOps0 (W0 m ρ c) (Proc.devRef .tc main_arg2) = W0 m ρ c (Proc.devRef .tc main_arg2)).trans rfl
theorem W1_arg3 (c : Dev nD) : W1 m ρ c (Proc.devRef .tc main_arg3) = m ((c : Thread nD τ).loc main_arg3) :=
  (by host_keeps hostOps0 : StableHlo.after hostOps0 (W0 m ρ c) (Proc.devRef .tc main_arg3) = W0 m ρ c (Proc.devRef .tc main_arg3)).trans rfl
theorem W1_arg4 (c : Dev nD) : W1 m ρ c (Proc.devRef .tc main_arg4) = m ((c : Thread nD τ).loc main_arg4) :=
  (by host_keeps hostOps0 : StableHlo.after hostOps0 (W0 m ρ c) (Proc.devRef .tc main_arg4) = W0 m ρ c (Proc.devRef .tc main_arg4)).trans rfl
theorem W1_arg5 (c : Dev nD) : W1 m ρ c (Proc.devRef .tc main_arg5) = m ((c : Thread nD τ).loc main_arg5) :=
  (by host_keeps hostOps0 : StableHlo.after hostOps0 (W0 m ρ c) (Proc.devRef .tc main_arg5) = W0 m ρ c (Proc.devRef .tc main_arg5)).trans rfl
theorem W1_arg6 (c : Dev nD) : W1 m ρ c (Proc.devRef .tc main_arg6) = m ((c : Thread nD τ).loc main_arg6) :=
  (by host_keeps hostOps0 : StableHlo.after hostOps0 (W0 m ρ c) (Proc.devRef .tc main_arg6) = W0 m ρ c (Proc.devRef .tc main_arg6)).trans rfl
theorem W1_arg7 (c : Dev nD) : W1 m ρ c (Proc.devRef .tc main_arg7) = m ((c : Thread nD τ).loc main_arg7) :=
  (by host_keeps hostOps0 : StableHlo.after hostOps0 (W0 m ρ c) (Proc.devRef .tc main_arg7) = W0 m ρ c (Proc.devRef .tc main_arg7)).trans rfl

/-! ## After region 0 (it owns the node features, the first weight array and its product) -/

theorem W2_v3 (c : Dev nD) : W2 m ρ c (Proc.devRef .tc main_v3) = W1 m ρ c (Proc.devRef .tc main_v3) := W2_of_ne m ρ c main_v3 (by decide)
theorem W2_v6 (c : Dev nD) : W2 m ρ c (Proc.devRef .tc main_v6) = W1 m ρ c (Proc.devRef .tc main_v6) := W2_of_ne m ρ c main_v6 (by decide)
theorem W2_v28 (c : Dev nD) : W2 m ρ c (Proc.devRef .tc main_v28) = W1 m ρ c (Proc.devRef .tc main_v28) := W2_of_ne m ρ c main_v28 (by decide)
theorem W2_arg3 (c : Dev nD) : W2 m ρ c (Proc.devRef .tc main_arg3) = m ((c : Thread nD τ).loc main_arg3) := (W2_of_ne m ρ c main_arg3 (by decide)).trans (W1_arg3 m ρ c)
theorem W2_arg4 (c : Dev nD) : W2 m ρ c (Proc.devRef .tc main_arg4) = m ((c : Thread nD τ).loc main_arg4) := (W2_of_ne m ρ c main_arg4 (by decide)).trans (W1_arg4 m ρ c)
theorem W2_arg5 (c : Dev nD) : W2 m ρ c (Proc.devRef .tc main_arg5) = m ((c : Thread nD τ).loc main_arg5) := (W2_of_ne m ρ c main_arg5 (by decide)).trans (W1_arg5 m ρ c)
theorem W2_arg6 (c : Dev nD) : W2 m ρ c (Proc.devRef .tc main_arg6) = m ((c : Thread nD τ).loc main_arg6) := (W2_of_ne m ρ c main_arg6 (by decide)).trans (W1_arg6 m ρ c)
theorem W2_arg7 (c : Dev nD) : W2 m ρ c (Proc.devRef .tc main_arg7) = m ((c : Thread nD τ).loc main_arg7) := (W2_of_ne m ρ c main_arg7 (by decide)).trans (W1_arg7 m ρ c)

/-! ## After the second stretch -/

theorem W3_v3 (c : Dev nD) : W3 m ρ c (Proc.devRef .tc main_v3) = W1 m ρ c (Proc.devRef .tc main_v3) :=
  (by host_keeps hostOps1 : StableHlo.after hostOps1 (W2 m ρ c) (Proc.devRef .tc main_v3) = W2 m ρ c (Proc.devRef .tc main_v3)).trans (W2_v3 m ρ c)
theorem W3_v6 (c : Dev nD) : W3 m ρ c (Proc.devRef .tc main_v6) = W1 m ρ c (Proc.devRef .tc main_v6) :=
  (by host_keeps hostOps1 : StableHlo.after hostOps1 (W2 m ρ c) (Proc.devRef .tc main_v6) = W2 m ρ c (Proc.devRef .tc main_v6)).trans (W2_v6 m ρ c)
theorem W3_v28 (c : Dev nD) : W3 m ρ c (Proc.devRef .tc main_v28) = W1 m ρ c (Proc.devRef .tc main_v28) :=
  (by host_keeps hostOps1 : StableHlo.after hostOps1 (W2 m ρ c) (Proc.devRef .tc main_v28) = W2 m ρ c (Proc.devRef .tc main_v28)).trans (W2_v28 m ρ c)
theorem W3_arg4 (c : Dev nD) : W3 m ρ c (Proc.devRef .tc main_arg4) = m ((c : Thread nD τ).loc main_arg4) :=
  (by host_keeps hostOps1 : StableHlo.after hostOps1 (W2 m ρ c) (Proc.devRef .tc main_arg4) = W2 m ρ c (Proc.devRef .tc main_arg4)).trans (W2_arg4 m ρ c)
theorem W3_arg5 (c : Dev nD) : W3 m ρ c (Proc.devRef .tc main_arg5) = m ((c : Thread nD τ).loc main_arg5) :=
  (by host_keeps hostOps1 : StableHlo.after hostOps1 (W2 m ρ c) (Proc.devRef .tc main_arg5) = W2 m ρ c (Proc.devRef .tc main_arg5)).trans (W2_arg5 m ρ c)
theorem W3_arg6 (c : Dev nD) : W3 m ρ c (Proc.devRef .tc main_arg6) = m ((c : Thread nD τ).loc main_arg6) :=
  (by host_keeps hostOps1 : StableHlo.after hostOps1 (W2 m ρ c) (Proc.devRef .tc main_arg6) = W2 m ρ c (Proc.devRef .tc main_arg6)).trans (W2_arg6 m ρ c)
theorem W3_arg7 (c : Dev nD) : W3 m ρ c (Proc.devRef .tc main_arg7) = m ((c : Thread nD τ).loc main_arg7) :=
  (by host_keeps hostOps1 : StableHlo.after hostOps1 (W2 m ρ c) (Proc.devRef .tc main_arg7) = W2 m ρ c (Proc.devRef .tc main_arg7)).trans (W2_arg7 m ρ c)

/-! ## After region 1 (it owns the first aggregate, the first bias row and the hidden layer) -/

theorem W4_v3 (c : Dev nD) : W4 m ρ c (Proc.devRef .tc main_v3) = W1 m ρ c (Proc.devRef .tc main_v3) := (W4_of_ne m ρ c main_v3 (by decide)).trans (W3_v3 m ρ c)
theorem W4_v6 (c : Dev nD) : W4 m ρ c (Proc.devRef .tc main_v6) = W1 m ρ c (Proc.devRef .tc main_v6) := (W4_of_ne m ρ c main_v6 (by decide)).trans (W3_v6 m ρ c)
theorem W4_v28 (c : Dev nD) : W4 m ρ c (Proc.devRef .tc main_v28) = W1 m ρ c (Proc.devRef .tc main_v28) := (W4_of_ne m ρ c main_v28 (by decide)).trans (W3_v28 m ρ c)
theorem W4_arg4 (c : Dev nD) : W4 m ρ c (Proc.devRef .tc main_arg4) = m ((c : Thread nD τ).loc main_arg4) := (W4_of_ne m ρ c main_arg4 (by decide)).trans (W3_arg4 m ρ c)
theorem W4_arg5 (c : Dev nD) : W4 m ρ c (Proc.devRef .tc main_arg5) = m ((c : Thread nD τ).loc main_arg5) := (W4_of_ne m ρ c main_arg5 (by decide)).trans (W3_arg5 m ρ c)
theorem W4_arg6 (c : Dev nD) : W4 m ρ c (Proc.devRef .tc main_arg6) = m ((c : Thread nD τ).loc main_arg6) := (W4_of_ne m ρ c main_arg6 (by decide)).trans (W3_arg6 m ρ c)
theorem W4_arg7 (c : Dev nD) : W4 m ρ c (Proc.devRef .tc main_arg7) = m ((c : Thread nD τ).loc main_arg7) := (W4_of_ne m ρ c main_arg7 (by decide)).trans (W3_arg7 m ρ c)

/-! ## After region 2 (it reads the hidden layer and the second weight array, and owns its product) -/

theorem W5_v3 (c : Dev nD) : W5 m ρ c (Proc.devRef .tc main_v3) = W1 m ρ c (Proc.devRef .tc main_v3) := (W5_of_ne m ρ c main_v3 (by decide)).trans (W4_v3 m ρ c)
theorem W5_v6 (c : Dev nD) : W5 m ρ c (Proc.devRef .tc main_v6) = W1 m ρ c (Proc.devRef .tc main_v6) := (W5_of_ne m ρ c main_v6 (by decide)).trans (W4_v6 m ρ c)
theorem W5_v28 (c : Dev nD) : W5 m ρ c (Proc.devRef .tc main_v28) = W1 m ρ c (Proc.devRef .tc main_v28) := (W5_of_ne m ρ c main_v28 (by decide)).trans (W4_v28 m ρ c)
theorem W5_arg5 (c : Dev nD) : W5 m ρ c (Proc.devRef .tc main_arg5) = m ((c : Thread nD τ).loc main_arg5) := (W5_of_ne m ρ c main_arg5 (by decide)).trans (W4_arg5 m ρ c)
theorem W5_arg6 (c : Dev nD) : W5 m ρ c (Proc.devRef .tc main_arg6) = m ((c : Thread nD τ).loc main_arg6) := (W5_of_ne m ρ c main_arg6 (by decide)).trans (W4_arg6 m ρ c)
theorem W5_arg7 (c : Dev nD) : W5 m ρ c (Proc.devRef .tc main_arg7) = m ((c : Thread nD τ).loc main_arg7) := (W5_of_ne m ρ c main_arg7 (by decide)).trans (W4_arg7 m ρ c)
/-- The hidden layer is an INPUT of region 2: an input array ends as it was entered. -/
theorem W5_v44 (c : Dev nD) : W5 m ρ c (Proc.devRef .tc main_v44) = W4 m ρ c (Proc.devRef .tc main_v44) :=
  (W5_arr m ρ c 0).trans (((dat2 (V4 m ρ) c).arrAt_in 0 rfl _).trans (A_eq2 (V4 m ρ) c 0))

/-! ## After the third stretch -/

theorem W6_v3 (c : Dev nD) : W6 m ρ c (Proc.devRef .tc main_v3) = W1 m ρ c (Proc.devRef .tc main_v3) :=
  (by host_keeps hostOps3 : StableHlo.after hostOps3 (W5 m ρ c) (Proc.devRef .tc main_v3) = W5 m ρ c (Proc.devRef .tc main_v3)).trans (W5_v3 m ρ c)
theorem W6_v6 (c : Dev nD) : W6 m ρ c (Proc.devRef .tc main_v6) = W1 m ρ c (Proc.devRef .tc main_v6) :=
  (by host_keeps hostOps3 : StableHlo.after hostOps3 (W5 m ρ c) (Proc.devRef .tc main_v6) = W5 m ρ c (Proc.devRef .tc main_v6)).trans (W5_v6 m ρ c)
theorem W6_v28 (c : Dev nD) : W6 m ρ c (Proc.devRef .tc main_v28) = W1 m ρ c (Proc.devRef .tc main_v28) :=
  (by host_keeps hostOps3 : StableHlo.after hostOps3 (W5 m ρ c) (Proc.devRef .tc main_v28) = W5 m ρ c (Proc.devRef .tc main_v28)).trans (W5_v28 m ρ c)
theorem W6_arg6 (c : Dev nD) : W6 m ρ c (Proc.devRef .tc main_arg6) = m ((c : Thread nD τ).loc main_arg6) :=
  (by host_keeps hostOps3 : StableHlo.after hostOps3 (W5 m ρ c) (Proc.devRef .tc main_arg6) = W5 m ρ c (Proc.devRef .tc main_arg6)).trans (W5_arg6 m ρ c)
theorem W6_arg7 (c : Dev nD) : W6 m ρ c (Proc.devRef .tc main_arg7) = m ((c : Thread nD τ).loc main_arg7) :=
  (by host_keeps hostOps3 : StableHlo.after hostOps3 (W5 m ρ c) (Proc.devRef .tc main_arg7) = W5 m ρ c (Proc.devRef .tc main_arg7)).trans (W5_arg7 m ρ c)
theorem W6_v44 (c : Dev nD) : W6 m ρ c (Proc.devRef .tc main_v44) = W4 m ρ c (Proc.devRef .tc main_v44) :=
  (by host_keeps hostOps3 : StableHlo.after hostOps3 (W5 m ρ c) (Proc.devRef .tc main_v44) = W5 m ρ c (Proc.devRef .tc main_v44)).trans (W5_v44 m ρ c)

/-! ## After region 3 (it owns the second aggregate, the second bias row and the first result) -/

theorem W7_v3 (c : Dev nD) : W7 m ρ c (Proc.devRef .tc main_v3) = W1 m ρ c (Proc.devRef .tc main_v3) := (W7_of_ne m ρ c main_v3 (by decide)).trans (W6_v3 m ρ c)
theorem W7_v6 (c : Dev nD) : W7 m ρ c (Proc.devRef .tc main_v6) = W1 m ρ c (Proc.devRef .tc main_v6) := (W7_of_ne m ρ c main_v6 (by decide)).trans (W6_v6 m ρ c)
theorem W7_v28 (c : Dev nD) : W7 m ρ c (Proc.devRef .tc main_v28) = W1 m ρ c (Proc.devRef .tc main_v28) := (W7_of_ne m ρ c main_v28 (by decide)).trans (W6_v28 m ρ c)
theorem W7_arg6 (c : Dev nD) : W7 m ρ c (Proc.devRef .tc main_arg6) = m ((c : Thread nD τ).loc main_arg6) := (W7_of_ne m ρ c main_arg6 (by decide)).trans (W6_arg6 m ρ c)
theorem W7_arg7 (c : Dev nD) : W7 m ρ c (Proc.devRef .tc main_arg7) = m ((c : Thread nD τ).loc main_arg7) := (W7_of_ne m ρ c main_arg7 (by decide)).trans (W6_arg7 m ρ c)
theorem W7_v44 (c : Dev nD) : W7 m ρ c (Proc.devRef .tc main_v44) = W4 m ρ c (Proc.devRef .tc main_v44) := (W7_of_ne m ρ c main_v44 (by decide)).trans (W6_v44 m ρ c)

/-! ## After region 4 (it reads the hidden layer and the third weight array, and owns its product) -/

theorem W8_v3 (c : Dev nD) : W8 m ρ c (Proc.devRef .tc main_v3) = W1 m ρ c (Proc.devRef .tc main_v3) := (W8_of_ne m ρ c main_v3 (by decide)).trans (W7_v3 m ρ c)
theorem W8_v6 (c : Dev nD) : W8 m ρ c (Proc.devRef .tc main_v6) = W1 m ρ c (Proc.devRef .tc main_v6) := (W8_of_ne m ρ c main_v6 (by decide)).trans (W7_v6 m ρ c)
theorem W8_v28 (c : Dev nD) : W8 m ρ c (Proc.devRef .tc main_v28) = W1 m ρ c (Proc.devRef .tc main_v28) := (W8_of_ne m ρ c main_v28 (by decide)).trans (W7_v28 m ρ c)
theorem W8_arg7 (c : Dev nD) : W8 m ρ c (Proc.devRef .tc main_arg7) = m ((c : Thread nD τ).loc main_arg7) := (W8_of_ne m ρ c main_arg7 (by decide)).trans (W7_arg7 m ρ c)
theorem W8_v60 (c : Dev nD) : W8 m ρ c (Proc.devRef .tc main_v60) = W7 m ρ c (Proc.devRef .tc main_v60) := W8_of_ne m ρ c main_v60 (by decide)

/-! ## The first result through the last stretch and the last region -/

theorem W9_v60 (c : Dev nD) : W9 m ρ c (Proc.devRef .tc main_v60) = W7 m ρ c (Proc.devRef .tc main_v60) :=
  (by host_keeps hostOps5 : StableHlo.after hostOps5 (W8 m ρ c) (Proc.devRef .tc main_v60) = W8 m ρ c (Proc.devRef .tc main_v60)).trans (W8_v60 m ρ c)
theorem W10_v60 (c : Dev nD) : W10 m ρ c (Proc.devRef .tc main_v60) = W7 m ρ c (Proc.devRef .tc main_v60) := (W10_of_ne m ρ c main_v60 (by decide)).trans (W9_v60 m ρ c)

end Cert.KernelIdeal.Kept

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.RegionMatmul.lean ====
/-
  The three matrix-product regions.  Each walks ten blocks of 5000 rows; at a block it multiplies the block of the
  left array by the whole right array into a zero accumulator, the change of float format before the product being
  the identity on the extended reals.  So the output array ends as the host's product of the two whole arrays:
  entry (r, n) of either is the sum over l of left (r, l) · right (l, n).
-/
import proofs.«178109_j24335284699606_1_alg».proof.Proof.Gen.KernelIdeal.Frame
import proofs.«178109_j24335284699606_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionMatmul

open Cert.KernelIdeal Cert.KernelIdeal.Gen Idealize.ShloMosaic Idealize.ShloMosaic.TcCoe Idealize.ShloMosaic.ValueIdx Idealize.SL.Sem
open Idealize.ShloMosaic.Pipeline (Dat Cfg Window)

-- the buffer contents a region is entered with: every statement below holds whatever they are
variable (V : (c : Dev nD) → (b : Ref sig .tc) → Buf (Elt Ideal) ((c : Thread nD τ).loc b))

/-- The zero offset of a whole-buffer access, as a constant function. -/
theorem zero_off : (![0, 0] : Fin 2 → Nat) = fun _ => 0 := funext fun a => by fin_cases a <;> rfl

/-! ## Region 0 -/

/-- The body's product at entry (p, q): the sum over l of left (p, l) · right (l, q). -/
theorem pay0_apply (x : Vec Ideal S5000x128 .f32) (w : Vec Ideal S128x128 .f32) (p : Fin 5000) (q : Fin 128) :
    k0_pay1 x w (ix2 p q) = ∑ l : Fin 128, x (ix2 p l) * w (ix2 l q) := by
  unfold k0_pay1
  rw [Cert.Gcn.matmul_plain_apply (M := 5000) (K := 128) (N := 128) dot_S5000x128_S128x128_S5000x128_1_0_0_1_n_n ⟨rfl, rfl, rfl, rfl, rfl, rfl⟩]
  rfl

/-- The block indices over the grid: the left and output blocks are block t of their rows, the right block is the
    whole array. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the left block at point t is row 5000 t + p of the left array. -/
theorem left0 (c : Dev nD) (t : Fin cfg0.N) (p : Fin 5000) (l : Fin 128) (h : t.val * 5000 + p.val < 50000) :
    iblk0 V c 0 t (ix2 p l) = (V c main_arg0 : FVec Ideal S50000x128 .f32) (ix2 ⟨t.val * 5000 + p.val, h⟩ l) := by
  obtain ⟨e0, e1, e2, e3, e4, e5⟩ := idx0 t
  show V c main_arg0 (((cfg0.win 0).blk t).view.emb (ix2 p l)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * l.val = l.val; omega

/-- The right block at any point is the right array. -/
theorem right0 (c : Dev nD) (t : Fin cfg0.N) (l : Fin 128) (q : Fin 128) :
    iblk0 V c 1 t (ix2 l q) = (V c main_arg2 : FVec Ideal S128x128 .f32) (ix2 l q) := by
  obtain ⟨e0, e1, e2, e3, e4, e5⟩ := idx0 t
  show V c main_arg2 (((cfg0.win 1).blk t).view.emb (ix2 l q)) = _
  refine congrArg _ (funext fun a => Fin.ext ?_)
  match a with
  | ⟨0, _⟩ => show win0_1.index t (0 : Fin 2) * 128 + 1 * l.val = l.val; omega
  | ⟨1, _⟩ => show win0_1.index t (1 : Fin 2) * 128 + 1 * q.val = q.val; omega

/-- What point t writes back is block t of the host's product of the two whole arrays. -/
theorem flushed0 (c : Dev nD) (D : DotDims S50000x128 S128x128 S50000x128)
    (hD : Cert.Gcn.IsPlain (M := 50000) (K := 128) (N := 128) D) (t : Fin cfg0.N) :
    (dat0 V c).flushed 2 t = ((cfg0.win 2).blk t).view.read (Elt Ideal)
      (Host.dotGeneral (F := Ideal) (φ₁ := .f32) (φ₂ := .f32) D none (V c main_arg0 : FVec Ideal S50000x128 .f32) (V c main_arg2 : FVec Ideal S128x128 .f32)) := by
  show (cfg0.win 2).cut (grid0.coords t) ((dat0 V c).after 2 t) = _
  rw [after0_2]
  unfold out0_2
  rw [View.canon_unit_zero zero_off]
  simp only [View.ld_unit_zero (S := S5000x128) zero_off, View.ld_unit_zero (S := S128x128) zero_off]
  obtain ⟨e0, e1, e2, e3, e4, e5⟩ := idx0 t
  have ht : t.val < 10 := lt_of_lt_of_eq t.isLt N_0
  funext j
  obtain ⟨p, q, rfl⟩ : ∃ (p : Fin 5000) (q : Fin 128), j = ix2 p q := ⟨j 0, j 1, eq_ix2 j⟩
  have hp : t.val * 5000 + p.val < 50000 := by have := p.isLt; omega
  have he : ((cfg0.win 2).blk t).view.emb (ix2 p q) = (ix2 ⟨t.val * 5000 + p.val, hp⟩ q : S50000x128.Idx) := by
    refine funext fun a => Fin.ext ?_
    match a with
    | ⟨0, _⟩ => show win0_2.index t (0 : Fin 2) * 5000 + 1 * p.val = t.val * 5000 + p.val; omega
    | ⟨1, _⟩ => show win0_2.index t (1 : Fin 2) * 128 + 1 * q.val = q.val; omega
  show k0_pay1 (iblk0 V c 0 t) (iblk0 V c 1 t) (ix2 p q)
    = Host.dotGeneral (F := Ideal) (φ₁ := .f32) (φ₂ := .f32) D none (V c main_arg0 : FVec Ideal S50000x128 .f32) (V c main_arg2 : FVec Ideal S128x128 .f32) (((cfg0.win 2).blk t).view.emb (ix2 p q))
  rw [he, pay0_apply, Cert.Gcn.dotGeneral_plain_apply (M := 50000) (K := 128) (N := 128) D hD]
  refine Finset.sum_congr rfl fun l _ => ?_
  rw [left0 V c t p l hp, right0 V c t l q]

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Row r of the output array is written at the point r / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < grid0.N := by rw [N_0]; omega
  obtain ⟨e0, e1, e2, e3, e4, e5⟩ := idx0 ⟨(i 0).val / 5000, hN⟩
  refine ⟨⟨(i 0).val / 5000, hN⟩, flush0_2 _, ?_⟩
  rw [mem_blk0]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hN⟩ (1 : Fin 2) * 128 ≤ (i 1).val ∧ (i 1).val < win0_2.index ⟨(i 0).val / 5000, hN⟩ (1 : Fin 2) * 128 + 128
    rw [e5]; omega

/-- Region 0: rows of 128 against a 128 × 128 right array. -/
theorem product0 (c : Dev nD) (D : DotDims S50000x128 S128x128 S50000x128)
    (hD : Cert.Gcn.IsPlain (M := 50000) (K := 128) (N := 128) D) :
    ((dat0 V c).arrAt 2 cfg0.N : FVec Ideal S50000x128 .f32)
      = Host.dotGeneral (F := Ideal) (φ₁ := .f32) (φ₂ := .f32) D none (V c main_arg0 : FVec Ideal S50000x128 .f32) (V c main_arg2 : FVec Ideal S128x128 .f32) :=
  (dat0 V c).arrAt_eq_of_cover 2 _ (fun t _ => flushed0 V c D hD t) cover0

/-! ## Region 2 -/

/-- The body's product at entry (p, q): the sum over l of left (p, l) · right (l, q); the cast of the left block's
    shape onto itself changes nothing. -/
theorem pay2_apply (x : Vec Ideal S5000x128 .f32) (w : Vec Ideal S128x64 .f32) (p : Fin 5000) (q : Fin 64) :
    k2_pay1 x w (ix2 p q) = ∑ l : Fin 128, x (ix2 p l) * w (ix2 l q) := by
  unfold k2_pay1
  rw [shapeCast_self, Cert.Gcn.matmul_plain_apply (M := 5000) (K := 128) (N := 64) dot_S5000x128_S128x64_S5000x64_1_0_0_1_n_n ⟨rfl, rfl, rfl, rfl, rfl, rfl⟩]
  rfl

/-- The block indices over the grid: the left and output blocks are block t of their rows, the right block is the
    whole array. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the left block at point t is row 5000 t + p of the left array. -/
theorem left2 (c : Dev nD) (t : Fin cfg2.N) (p : Fin 5000) (l : Fin 128) (h : t.val * 5000 + p.val < 50000) :
    iblk2 V c 0 t (ix2 p l) = (V c main_v44 : FVec Ideal S50000x128 .f32) (ix2 ⟨t.val * 5000 + p.val, h⟩ l) := by
  obtain ⟨e0, e1, e2, e3, e4, e5⟩ := idx2 t
  show V c main_v44 (((cfg2.win 0).blk t).view.emb (ix2 p l)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * l.val = l.val; omega

/-- The right block at any point is the right array. -/
theorem right2 (c : Dev nD) (t : Fin cfg2.N) (l : Fin 128) (q : Fin 64) :
    iblk2 V c 1 t (ix2 l q) = (V c main_arg4 : FVec Ideal S128x64 .f32) (ix2 l q) := by
  obtain ⟨e0, e1, e2, e3, e4, e5⟩ := idx2 t
  show V c main_arg4 (((cfg2.win 1).blk t).view.emb (ix2 l q)) = _
  refine congrArg _ (funext fun a => Fin.ext ?_)
  match a with
  | ⟨0, _⟩ => show win2_1.index t (0 : Fin 2) * 128 + 1 * l.val = l.val; omega
  | ⟨1, _⟩ => show win2_1.index t (1 : Fin 2) * 64 + 1 * q.val = q.val; omega

/-- What point t writes back is block t of the host's product of the two whole arrays. -/
theorem flushed2 (c : Dev nD) (D : DotDims S50000x128 S128x64 S50000x64)
    (hD : Cert.Gcn.IsPlain (M := 50000) (K := 128) (N := 64) D) (t : Fin cfg2.N) :
    (dat2 V c).flushed 2 t = ((cfg2.win 2).blk t).view.read (Elt Ideal)
      (Host.dotGeneral (F := Ideal) (φ₁ := .f32) (φ₂ := .f32) D none (V c main_v44 : FVec Ideal S50000x128 .f32) (V c main_arg4 : FVec Ideal S128x64 .f32)) := by
  show (cfg2.win 2).cut (grid2.coords t) ((dat2 V c).after 2 t) = _
  rw [after2_2]
  unfold out2_2
  rw [View.canon_unit_zero zero_off]
  simp only [View.ld_unit_zero (S := S5000x128) zero_off, View.ld_unit_zero (S := S128x64) zero_off]
  obtain ⟨e0, e1, e2, e3, e4, e5⟩ := idx2 t
  have ht : t.val < 10 := lt_of_lt_of_eq t.isLt N_2
  funext j
  obtain ⟨p, q, rfl⟩ : ∃ (p : Fin 5000) (q : Fin 64), j = ix2 p q := ⟨j 0, j 1, eq_ix2 j⟩
  have hp : t.val * 5000 + p.val < 50000 := by have := p.isLt; omega
  have he : ((cfg2.win 2).blk t).view.emb (ix2 p q) = (ix2 ⟨t.val * 5000 + p.val, hp⟩ q : S50000x64.Idx) := by
    refine funext fun a => Fin.ext ?_
    match a with
    | ⟨0, _⟩ => show win2_2.index t (0 : Fin 2) * 5000 + 1 * p.val = t.val * 5000 + p.val; omega
    | ⟨1, _⟩ => show win2_2.index t (1 : Fin 2) * 64 + 1 * q.val = q.val; omega
  show k2_pay1 (iblk2 V c 0 t) (iblk2 V c 1 t) (ix2 p q)
    = Host.dotGeneral (F := Ideal) (φ₁ := .f32) (φ₂ := .f32) D none (V c main_v44 : FVec Ideal S50000x128 .f32) (V c main_arg4 : FVec Ideal S128x64 .f32) (((cfg2.win 2).blk t).view.emb (ix2 p q))
  rw [he, pay2_apply, Cert.Gcn.dotGeneral_plain_apply (M := 50000) (K := 128) (N := 64) D hD]
  refine Finset.sum_congr rfl fun l _ => ?_
  rw [left2 V c t p l hp, right2 V c t l q]

/-- An index of the output array is in point t's block iff each coordinate is in the block's range on its axis. -/
theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- Row r of the output array is written at the point r / 5000. -/
theorem cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : (i 0).val / 5000 < grid2.N := by rw [N_2]; omega
  obtain ⟨e0, e1, e2, e3, e4, e5⟩ := idx2 ⟨(i 0).val / 5000, hN⟩
  refine ⟨⟨(i 0).val / 5000, hN⟩, flush2_2 _, ?_⟩
  rw [mem_blk2]
  intro a
  match a with
  | ⟨0, _⟩ =>
    show win2_2.index ⟨(i 0).val / 5000, hN⟩ (0 : Fin 2) * 5000 ≤ (i 0).val ∧ (i 0).val < win2_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hN⟩ (1 : Fin 2) * 64 ≤ (i 1).val ∧ (i 1).val < win2_2.index ⟨(i 0).val / 5000, hN⟩ (1 : Fin 2) * 64 + 64
    rw [e5]; omega

/-- Region 2: rows of 128 against a 128 × 64 right array. -/
theorem product2 (c : Dev nD) (D : DotDims S50000x128 S128x64 S50000x64)
    (hD : Cert.Gcn.IsPlain (M := 50000) (K := 128) (N := 64) D) :
    ((dat2 V c).arrAt 2 cfg2.N : FVec Ideal S50000x64 .f32)
      = Host.dotGeneral (F := Ideal) (φ₁ := .f32) (φ₂ := .f32) D none (V c main_v44 : FVec Ideal S50000x128 .f32) (V c main_arg4 : FVec Ideal S128x64 .f32) :=
  (dat2 V c).arrAt_eq_of_cover 2 _ (fun t _ => flushed2 V c D hD t) cover2

end Cert.KernelIdeal.RegionMatmul

end
-- ==== Proof.RegionMatmul4.lean ====
/-
  Region 4 of the matrix-product regions: the walk of region 2 over ten blocks of 5000 rows, against the other
  128 × 64 right array.  The output array ends as the host's product of the two whole arrays.
-/
import proofs.«178109_j24335284699606_1_alg».proof.Proof.RegionMatmul

set_option maxRecDepth 16384

noncomputable section

namespace Cert.KernelIdeal.RegionMatmul

open Cert.KernelIdeal Cert.KernelIdeal.Gen Idealize.ShloMosaic Idealize.ShloMosaic.TcCoe Idealize.ShloMosaic.ValueIdx Idealize.SL.Sem
open Idealize.ShloMosaic.Pipeline (Dat Cfg Window)

-- the buffer contents a region is entered with: every statement below holds whatever they are
variable (V : (c : Dev nD) → (b : Ref sig .tc) → Buf (Elt Ideal) ((c : Thread nD τ).loc b))

/-! ## Region 4 -/

/-- The body's product at entry (p, q): the sum over l of left (p, l) · right (l, q); the cast of the left block's
    shape onto itself changes nothing. -/
theorem pay4_apply (x : Vec Ideal S5000x128 .f32) (w : Vec Ideal S128x64 .f32) (p : Fin 5000) (q : Fin 64) :
    k4_pay1 x w (ix2 p q) = ∑ l : Fin 128, x (ix2 p l) * w (ix2 l q) := by
  unfold k4_pay1
  rw [shapeCast_self, Cert.Gcn.matmul_plain_apply (M := 5000) (K := 128) (N := 64) dot_S5000x128_S128x64_S5000x64_1_0_0_1_n_n ⟨rfl, rfl, rfl, rfl, rfl, rfl⟩]
  rfl

/-- The block indices over the grid: the left and output blocks are block t of their rows, the right block is the
    whole array. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row p of the left block at point t is row 5000 t + p of the left array. -/
theorem left4 (c : Dev nD) (t : Fin cfg4.N) (p : Fin 5000) (l : Fin 128) (h : t.val * 5000 + p.val < 50000) :
    iblk4 V c 0 t (ix2 p l) = (V c main_v44 : FVec Ideal S50000x128 .f32) (ix2 ⟨t.val * 5000 + p.val, h⟩ l) := by
  obtain ⟨e0, e1, e2, e3, e4, e5⟩ := idx4 t
  show V c main_v44 (((cfg4.win 0).blk t).view.emb (ix2 p l)) = _
  refine congrArg _ (funext fun a => Fin.ext ?_)
  match a with
  | ⟨0, _⟩ => show win4_0.index t (0 : Fin 2) * 5000 + 1 * p.val = t.val * 5000 + p.val; omega
  | ⟨1, _⟩ => show win4_0.index t (1 : Fin 2) * 128 + 1 * l.val = l.val; omega

/-- The right block at any point is the right array. -/
theorem right4 (c : Dev nD) (t : Fin cfg4.N) (l : Fin 128) (q : Fin 64) :
    iblk4 V c 1 t (ix2 l q) = (V c main_arg6 : FVec Ideal S128x64 .f32) (ix2 l q) := by
  obtain ⟨e0, e1, e2, e3, e4, e5⟩ := idx4 t
  show V c main_arg6 (((cfg4.win 1).blk t).view.emb (ix2 l q)) = _
  refine congrArg _ (funext fun a => Fin.ext ?_)
  match a with
  | ⟨0, _⟩ => show win4_1.index t (0 : Fin 2) * 128 + 1 * l.val = l.val; omega
  | ⟨1, _⟩ => show win4_1.index t (1 : Fin 2) * 64 + 1 * q.val = q.val; omega

/-- What point t writes back is block t of the host's product of the two whole arrays. -/
theorem flushed4 (c : Dev nD) (D : DotDims S50000x128 S128x64 S50000x64)
    (hD : Cert.Gcn.IsPlain (M := 50000) (K := 128) (N := 64) D) (t : Fin cfg4.N) :
    (dat4 V c).flushed 2 t = ((cfg4.win 2).blk t).view.read (Elt Ideal)
      (Host.dotGeneral (F := Ideal) (φ₁ := .f32) (φ₂ := .f32) D none (V c main_v44 : FVec Ideal S50000x128 .f32) (V c main_arg6 : FVec Ideal S128x64 .f32)) := by
  show (cfg4.win 2).cut (grid4.coords t) ((dat4 V c).after 2 t) = _
  rw [after4_2]
  unfold out4_2
  rw [View.canon_unit_zero zero_off]
  simp only [View.ld_unit_zero (S := S5000x128) zero_off, View.ld_unit_zero (S := S128x64) zero_off]
  obtain ⟨e0, e1, e2, e3, e4, e5⟩ := idx4 t
  have ht : t.val < 10 := lt_of_lt_of_eq t.isLt N_4
  funext j
  obtain ⟨p, q, rfl⟩ : ∃ (p : Fin 5000) (q : Fin 64), j = ix2 p q := ⟨j 0, j 1, eq_ix2 j⟩
  have hp : t.val * 5000 + p.val < 50000 := by have := p.isLt; omega
  have he : ((cfg4.win 2).blk t).view.emb (ix2 p q) = (ix2 ⟨t.val * 5000 + p.val, hp⟩ q : S50000x64.Idx) := by
    refine funext fun a => Fin.ext ?_
    match a with
    | ⟨0, _⟩ => show win4_2.index t (0 : Fin 2) * 5000 + 1 * p.val = t.val * 5000 + p.val; omega
    | ⟨1, _⟩ => show win4_2.index t (1 : Fin 2) * 64 + 1 * q.val = q.val; omega
  show k4_pay1 (iblk4 V c 0 t) (iblk4 V c 1 t) (ix2 p q)
    = Host.dotGeneral (F := Ideal) (φ₁ := .f32) (φ₂ := .f32) D none (V c main_v44 : FVec Ideal S50000x128 .f32) (V c main_arg6 : FVec Ideal S128x64 .f32) (((cfg4.win 2).blk t).view.emb (ix2 p q))
  rw [he, pay4_apply, Cert.Gcn.dotGeneral_plain_apply (M := 50000) (K := 128) (N := 64) D hD]
  refine Finset.sum_congr rfl fun l _ => ?_
  rw [left4 V c t p l hp, right4 V c t l q]

/-- An index of the output array is in point t's block iff each coordinate is in the block's range on its axis. -/
theorem mem_blk4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v61).slice (win4_2.rect t)).set ↔ _
  rw [View.set_slice_whole, Rect.mem_set_unit]
  exact Iff.rfl

/-- Row r of the output array is written at the point r / 5000. -/
theorem cover4 (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  have hN : (i 0).val / 5000 < grid4.N := by rw [N_4]; omega
  obtain ⟨e0, e1, e2, e3, e4, e5⟩ := idx4 ⟨(i 0).val / 5000, hN⟩
  refine ⟨⟨(i 0).val / 5000, hN⟩, flush4_2 _, ?_⟩
  rw [mem_blk4]
  intro a
  match a with
  | ⟨0, _⟩ =>
    show win4_2.index ⟨(i 0).val / 5000, hN⟩ (0 : Fin 2) * 5000 ≤ (i 0).val ∧ (i 0).val < win4_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, hN⟩ (1 : Fin 2) * 64 ≤ (i 1).val ∧ (i 1).val < win4_2.index ⟨(i 0).val / 5000, hN⟩ (1 : Fin 2) * 64 + 64
    rw [e5]; omega

/-- Region 4: the same product against the other 128 × 64 right array. -/
theorem product4 (c : Dev nD) (D : DotDims S50000x128 S128x64 S50000x64)
    (hD : Cert.Gcn.IsPlain (M := 50000) (K := 128) (N := 64) D) :
    ((dat4 V c).arrAt 2 cfg4.N : FVec Ideal S50000x64 .f32)
      = Host.dotGeneral (F := Ideal) (φ₁ := .f32) (φ₂ := .f32) D none (V c main_v44 : FVec Ideal S50000x128 .f32) (V c main_arg6 : FVec Ideal S128x64 .f32) :=
  (dat4 V c).arrAt_eq_of_cover 2 _ (fun t _ => flushed4 V c D hD t) cover4

end Cert.KernelIdeal.RegionMatmul

end
-- ==== Proof.RegionBias.lean ====
/-
  The three bias regions.  Each walks ten blocks of 5000 rows; at a block it adds to every row of the block the one
  row of the bias array, and the first of the three then takes the maximum with zero.  So entry (r, n) of the output
  array is the entry (r, n) of the input array plus entry (0, n) of the bias row (for the first: the larger of that
  and zero).
-/
import proofs.«178109_j24335284699606_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionBias

open Cert.KernelIdeal Cert.KernelIdeal.Gen Idealize.ShloMosaic Idealize.ShloMosaic.TcCoe Idealize.ShloMosaic.ValueIdx Idealize.SL.Sem
open Idealize.ShloMosaic.Pipeline (Dat Cfg Window)

-- the buffer contents a region is entered with: every statement below holds whatever they are
variable (V : (c : Dev nD) → (b : Ref sig .tc) → Buf (Elt Ideal) ((c : Thread nD τ).loc b))

/-- A block that starts at the origin of its buffer: both offsets are zero. -/
theorem zero_off : (![0, 0] : Fin 2 → Nat) = fun _ => 0 := funext fun a => by fin_cases a <;> rfl

/-! ## Region 1: a hundred and twenty-eight columns, the bias row added, then the maximum with zero -/

/-- One block's payload at row p, column q: the block's entry there plus the bias row's entry in column q, and then the
    larger of that and the zero word.  The two shape casts are of a shape onto itself, the row broadcast reads row 0,
    and the broadcast scalar is the same at every entry. -/
theorem pay1_apply (x : Vec Ideal S5000x128 .f32) (b : Vec Ideal S1x128 .f32) (p : Fin 5000) (q : Fin 128) :
    k1_pay1 x b (ix2 p q)
      = FloatOps.maximumf (F := Ideal) (φ := .f32)
          (FloatOps.addf (F := Ideal) (φ := .f32) (x (ix2 p q)) (b (ix2 0 q)))
          (FloatOps.ofBits (F := Ideal) .f32 0x00000000#32) := by
  unfold k1_pay1
  refine congrArg₂ (FloatOps.maximumf (F := Ideal) (φ := .f32))
    (congrArg₂ (FloatOps.addf (F := Ideal) (φ := .f32)) ?_ ?_) rfl
  · exact congrFun (shapeCast_self x shapeCasts_S5000x128_S5000x128) (ix2 p q)
  · refine (broadcastTo_apply _ broadcasts_S1x128_S5000x128 (ix2 p q) (ix2 0 q) ?_).trans ?_
    · intro a
      match a with
      | ⟨0, _⟩ => rfl
      | ⟨1, _⟩ => rfl
    · exact congrFun (shapeCast_self b shapeCasts_S1x128_S1x128) (ix2 0 q)

/-- Where the ten points' blocks lie: point t reads rows 5000 t … 5000 t + 4999 of the input, the whole bias row, and
    writes the same rows of the output. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole output array of region 1 as a function of the whole input array and the bias row. -/
def biasedRelu1 (X : FVec Ideal S50000x128 .f32) (B : FVec Ideal S1x128 .f32) : FVec Ideal S50000x128 .f32 :=
  fun i => FloatOps.maximumf (F := Ideal) (φ := .f32)
    (FloatOps.addf (F := Ideal) (φ := .f32) (X i) (B (ix2 0 ⟨(i 1).val, (i 1).isLt⟩)))
    (FloatOps.ofBits (F := Ideal) .f32 0x00000000#32)

/-- What point t writes back is block t of that array: entry (p, q) of the input block is entry (5000 t + p, q) of the
    input array, and the bias block is the bias row itself. -/
theorem flushed1 (c : Dev nD) (t : Fin cfg1.N) :
    (dat1 V c).flushed 2 t
      = ((cfg1.win 2).blk t).view.read (Elt Ideal) (biasedRelu1 (V c main_v42) (V c main_v43)) := by
  show (cfg1.win 2).cut (grid1.coords t) ((dat1 V c).after 2 t) = _
  rw [after1_2]
  unfold out1_2
  rw [View.canon_unit_zero zero_off]
  simp only [View.ld_unit_zero (S := S5000x128) zero_off, View.ld_unit_zero (S := S1x128) zero_off]
  obtain ⟨e0, e1, e2, e3, e4, e5⟩ := idx1 t
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
      = biasedRelu1 (V c main_v42) (V c main_v43) (((cfg1.win 2).blk t).view.emb (ix2 p q))
  refine (pay1_apply (iblk1 V c 0 t) (iblk1 V c 1 t) p q).trans ?_
  refine congrArg₂ (FloatOps.maximumf (F := Ideal) (φ := .f32))
    (congrArg₂ (FloatOps.addf (F := Ideal) (φ := .f32)) ?_ ?_) rfl
  · show V c main_v42 (((cfg1.win 0).blk t).view.emb (ix2 p q))
        = V c main_v42 (((cfg1.win 2).blk t).view.emb (ix2 p q))
    refine congrArg _ (funext fun a => Fin.ext ?_)
    match a with
    | ⟨0, _⟩ =>
      show win1_0.index t (0 : Fin 2) * 5000 + 1 * p.val = win1_2.index t (0 : Fin 2) * 5000 + 1 * p.val
      omega
    | ⟨1, _⟩ =>
      show win1_0.index t (1 : Fin 2) * 128 + 1 * q.val = win1_2.index t (1 : Fin 2) * 128 + 1 * q.val
      omega
  · show V c main_v43 (((cfg1.win 1).blk t).view.emb (ix2 0 q))
        = V c main_v43 (ix2 0 ⟨(((cfg1.win 2).blk t).view.emb (ix2 p q) 1).val, _⟩)
    refine congrArg _ (funext fun a => Fin.ext ?_)
    match a with
    | ⟨0, _⟩ =>
      show win1_1.index t (0 : Fin 2) * 1 + 1 * 0 = 0
      omega
    | ⟨1, _⟩ =>
      show win1_1.index t (1 : Fin 2) * 128 + 1 * q.val = win1_2.index t (1 : Fin 2) * 128 + 1 * q.val
      omega

/-- An entry of the output array lies in point t's block exactly when each coordinate lies in the block's range. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v44).slice (win1_2.rect t)).set ↔ _
  rw [View.set_slice_whole, Rect.mem_set_unit]
  exact Iff.rfl

/-- Every entry of the output array is written: row r by the point r / 5000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega : (i 0).val / 5000 < 10) N_1.symm⟩, rfl⟩
  obtain ⟨e0, e1, e2, e3, e4, e5⟩ := idx1 t
  refine ⟨t, flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- The output array after the ten points. -/
theorem final1 (c : Dev nD) : (dat1 V c).arrAt 2 cfg1.N = biasedRelu1 (V c main_v42) (V c main_v43) :=
  (dat1 V c).arrAt_eq_of_cover 2 _ (fun t _ => flushed1 V c t) cover1

/-! ## Region 3: sixty-four columns, the bias row added -/

/-- One block's payload at row p, column q: the block's entry there plus the bias row's entry in column q.  The two
    shape casts are of a shape onto itself, and the row broadcast reads row 0. -/
theorem pay3_apply (x : Vec Ideal S5000x64 .f32) (b : Vec Ideal S1x64 .f32) (p : Fin 5000) (q : Fin 64) :
    k3_pay1 x b (ix2 p q) = FloatOps.addf (F := Ideal) (φ := .f32) (x (ix2 p q)) (b (ix2 0 q)) := by
  unfold k3_pay1
  refine congrArg₂ (FloatOps.addf (F := Ideal) (φ := .f32)) ?_ ?_
  · exact congrFun (shapeCast_self x shapeCasts_S5000x64_S5000x64) (ix2 p q)
  · refine (broadcastTo_apply _ broadcasts_S1x64_S5000x64 (ix2 p q) (ix2 0 q) ?_).trans ?_
    · intro a
      match a with
      | ⟨0, _⟩ => rfl
      | ⟨1, _⟩ => rfl
    · exact congrFun (shapeCast_self b shapeCasts_S1x64_S1x64) (ix2 0 q)

/-- Where the ten points' blocks lie: point t reads rows 5000 t … 5000 t + 4999 of the input, the whole bias row, and
    writes the same rows of the output. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The whole output array of region 3 as a function of the whole input array and the bias row. -/
def biased3 (X : FVec Ideal S50000x64 .f32) (B : FVec Ideal S1x64 .f32) : FVec Ideal S50000x64 .f32 :=
  fun i => FloatOps.addf (F := Ideal) (φ := .f32) (X i) (B (ix2 0 ⟨(i 1).val, (i 1).isLt⟩))

/-- What point t writes back is block t of that array: entry (p, q) of the input block is entry (5000 t + p, q) of the
    input array, and the bias block is the bias row itself. -/
theorem flushed3 (c : Dev nD) (t : Fin cfg3.N) :
    (dat3 V c).flushed 2 t = ((cfg3.win 2).blk t).view.read (Elt Ideal) (biased3 (V c main_v58) (V c main_v59)) := by
  show (cfg3.win 2).cut (grid3.coords t) ((dat3 V c).after 2 t) = _
  rw [after3_2]
  unfold out3_2
  rw [View.canon_unit_zero zero_off]
  simp only [View.ld_unit_zero (S := S5000x64) zero_off, View.ld_unit_zero (S := S1x64) zero_off]
  obtain ⟨e0, e1, e2, e3, e4, e5⟩ := idx3 t
  funext j
  obtain ⟨p, q, rfl⟩ : ∃ (p : Fin 5000) (q : Fin 64), j = ix2 p q := ⟨j 0, j 1, eq_ix2 j⟩
  show k3_pay1 (iblk3 V c 0 t) (iblk3 V c 1 t) (ix2 p q)
      = biased3 (V c main_v58) (V c main_v59) (((cfg3.win 2).blk t).view.emb (ix2 p q))
  refine (pay3_apply (iblk3 V c 0 t) (iblk3 V c 1 t) p q).trans ?_
  refine congrArg₂ (FloatOps.addf (F := Ideal) (φ := .f32)) ?_ ?_
  · show V c main_v58 (((cfg3.win 0).blk t).view.emb (ix2 p q)) = V c main_v58 (((cfg3.win 2).blk t).view.emb (ix2 p q))
    refine congrArg _ (funext fun a => Fin.ext ?_)
    match a with
    | ⟨0, _⟩ =>
      show win3_0.index t (0 : Fin 2) * 5000 + 1 * p.val = win3_2.index t (0 : Fin 2) * 5000 + 1 * p.val
      omega
    | ⟨1, _⟩ =>
      show win3_0.index t (1 : Fin 2) * 64 + 1 * q.val = win3_2.index t (1 : Fin 2) * 64 + 1 * q.val
      omega
  · show V c main_v59 (((cfg3.win 1).blk t).view.emb (ix2 0 q))
        = V c main_v59 (ix2 0 ⟨(((cfg3.win 2).blk t).view.emb (ix2 p q) 1).val, _⟩)
    refine congrArg _ (funext fun a => Fin.ext ?_)
    match a with
    | ⟨0, _⟩ =>
      show win3_1.index t (0 : Fin 2) * 1 + 1 * 0 = 0
      omega
    | ⟨1, _⟩ =>
      show win3_1.index t (1 : Fin 2) * 64 + 1 * q.val = win3_2.index t (1 : Fin 2) * 64 + 1 * q.val
      omega

/-- An entry of the output array lies in point t's block exactly when each coordinate lies in the block's range. -/
theorem mem_blk3 (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v60).slice (win3_2.rect t)).set ↔ _
  rw [View.set_slice_whole, Rect.mem_set_unit]
  exact Iff.rfl

/-- Every entry of the output array is written: row r by the point r / 5000. -/
theorem cover3 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, lt_of_lt_of_eq (by omega : (i 0).val / 5000 < 10) N_3.symm⟩, rfl⟩
  obtain ⟨e0, e1, e2, e3, e4, e5⟩ := idx3 t
  refine ⟨t, flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 64 ≤ (i 1).val ∧ (i 1).val < win3_2.index t (1 : Fin 2) * 64 + 64
    omega

/-- The output array after the ten points. -/
theorem final3 (c : Dev nD) : (dat3 V c).arrAt 2 cfg3.N = biased3 (V c main_v58) (V c main_v59) :=
  (dat3 V c).arrAt_eq_of_cover 2 _ (fun t _ => flushed3 V c t) cover3

/-- Region 1: add the bias row, then the maximum with zero. -/
theorem biasRelu1 (c : Dev nD) (p : Fin 50000) (q : Fin 128) :
    ((dat1 V c).arrAt 2 cfg1.N : FVec Ideal S50000x128 .f32) (ix2 p q)
      = FloatOps.maximumf (F := Ideal) (FloatOps.addf (F := Ideal) ((V c main_v42 : FVec Ideal S50000x128 .f32) (ix2 p q)) ((V c main_v43 : FVec Ideal S1x128 .f32) (ix2 0 q)))
          (FloatOps.ofBits (F := Ideal) .f32 0x00000000#32) := by
  exact congrFun (final1 V c) (ix2 p q)

/-- Region 3: add the bias row. -/
theorem bias3 (c : Dev nD) (p : Fin 50000) (q : Fin 64) :
    ((dat3 V c).arrAt 2 cfg3.N : FVec Ideal S50000x64 .f32) (ix2 p q)
      = FloatOps.addf (F := Ideal) (φ := .f32) ((V c main_v58 : FVec Ideal S50000x64 .f32) (ix2 p q)) ((V c main_v59 : FVec Ideal S1x64 .f32) (ix2 0 q)) := by
  exact congrFun (final3 V c) (ix2 p q)

end Cert.KernelIdeal.RegionBias

end
-- ==== Proof.RegionBias5.lean ====
/-
  The third bias region, region 5: the same walk over ten blocks of 5000 rows as region 3, over region 5's own arrays.
-/
import proofs.«178109_j24335284699606_1_alg».proof.Proof.RegionBias

set_option maxRecDepth 16384

noncomputable section

namespace Cert.KernelIdeal.RegionBias

open Cert.KernelIdeal Cert.KernelIdeal.Gen Idealize.ShloMosaic Idealize.ShloMosaic.TcCoe Idealize.ShloMosaic.ValueIdx Idealize.SL.Sem
open Idealize.ShloMosaic.Pipeline (Dat Cfg Window)

-- the buffer contents a region is entered with: every statement below holds whatever they are
variable (V : (c : Dev nD) → (b : Ref sig .tc) → Buf (Elt Ideal) ((c : Thread nD τ).loc b))

/-! ## Region 5: sixty-four columns, the bias row added -/

/-- One block's payload at row p, column q: the block's entry there plus the bias row's entry in column q.  The two
    shape casts are of a shape onto itself, and the row broadcast reads row 0. -/
theorem pay5_apply (x : Vec Ideal S5000x64 .f32) (b : Vec Ideal S1x64 .f32) (p : Fin 5000) (q : Fin 64) :
    k5_pay1 x b (ix2 p q) = FloatOps.addf (F := Ideal) (φ := .f32) (x (ix2 p q)) (b (ix2 0 q)) := by
  unfold k5_pay1
  refine congrArg₂ (FloatOps.addf (F := Ideal) (φ := .f32)) ?_ ?_
  · exact congrFun (shapeCast_self x shapeCasts_S5000x64_S5000x64) (ix2 p q)
  · refine (broadcastTo_apply _ broadcasts_S1x64_S5000x64 (ix2 p q) (ix2 0 q) ?_).trans ?_
    · intro a
      match a with
      | ⟨0, _⟩ => rfl
      | ⟨1, _⟩ => rfl
    · exact congrFun (shapeCast_self b shapeCasts_S1x64_S1x64) (ix2 0 q)

/-- Where the ten points' blocks lie: point t reads rows 5000 t … 5000 t + 4999 of the input, the whole bias row, and
    writes the same rows of the output. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The whole output array of region 5 as a function of the whole input array and the bias row. -/
def biased5 (X : FVec Ideal S50000x64 .f32) (B : FVec Ideal S1x64 .f32) : FVec Ideal S50000x64 .f32 :=
  fun i => FloatOps.addf (F := Ideal) (φ := .f32) (X i) (B (ix2 0 ⟨(i 1).val, (i 1).isLt⟩))

/-- What point t writes back is block t of that array: entry (p, q) of the input block is entry (5000 t + p, q) of the
    input array, and the bias block is the bias row itself. -/
theorem flushed5 (c : Dev nD) (t : Fin cfg5.N) :
    (dat5 V c).flushed 2 t = ((cfg5.win 2).blk t).view.read (Elt Ideal) (biased5 (V c main_v74) (V c main_v75)) := by
  show (cfg5.win 2).cut (grid5.coords t) ((dat5 V c).after 2 t) = _
  rw [after5_2]
  unfold out5_2
  rw [View.canon_unit_zero zero_off]
  simp only [View.ld_unit_zero (S := S5000x64) zero_off, View.ld_unit_zero (S := S1x64) zero_off]
  obtain ⟨e0, e1, e2, e3, e4, e5⟩ := idx5 t
  funext j
  obtain ⟨p, q, rfl⟩ : ∃ (p : Fin 5000) (q : Fin 64), j = ix2 p q := ⟨j 0, j 1, eq_ix2 j⟩
  show k5_pay1 (iblk5 V c 0 t) (iblk5 V c 1 t) (ix2 p q)
      = biased5 (V c main_v74) (V c main_v75) (((cfg5.win 2).blk t).view.emb (ix2 p q))
  refine (pay5_apply (iblk5 V c 0 t) (iblk5 V c 1 t) p q).trans ?_
  refine congrArg₂ (FloatOps.addf (F := Ideal) (φ := .f32)) ?_ ?_
  · show V c main_v74 (((cfg5.win 0).blk t).view.emb (ix2 p q)) = V c main_v74 (((cfg5.win 2).blk t).view.emb (ix2 p q))
    refine congrArg _ (funext fun a => Fin.ext ?_)
    match a with
    | ⟨0, _⟩ =>
      show win5_0.index t (0 : Fin 2) * 5000 + 1 * p.val = win5_2.index t (0 : Fin 2) * 5000 + 1 * p.val
      omega
    | ⟨1, _⟩ =>
      show win5_0.index t (1 : Fin 2) * 64 + 1 * q.val = win5_2.index t (1 : Fin 2) * 64 + 1 * q.val
      omega
  · show V c main_v75 (((cfg5.win 1).blk t).view.emb (ix2 0 q))
        = V c main_v75 (ix2 0 ⟨(((cfg5.win 2).blk t).view.emb (ix2 p q) 1).val, _⟩)
    refine congrArg _ (funext fun a => Fin.ext ?_)
    match a with
    | ⟨0, _⟩ =>
      show win5_1.index t (0 : Fin 2) * 1 + 1 * 0 = 0
      omega
    | ⟨1, _⟩ =>
      show win5_1.index t (1 : Fin 2) * 64 + 1 * q.val = win5_2.index t (1 : Fin 2) * 64 + 1 * q.val
      omega

/-- An entry of the output array lies in point t's block exactly when each coordinate lies in the block's range. -/
theorem mem_blk5 (t : Fin cfg5.N) (i : S50000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v76).slice (win5_2.rect t)).set ↔ _
  rw [View.set_slice_whole, Rect.mem_set_unit]
  exact Iff.rfl

/-- Every entry of the output array is written: row r by the point r / 5000. -/
theorem cover5 (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  obtain ⟨t, ht⟩ : ∃ t : Fin cfg5.N, t.val = (i 0).val / 5000 :=
    ⟨⟨(i 0).val / 5000, lt_of_lt_of_eq (by omega : (i 0).val / 5000 < 10) N_5.symm⟩, rfl⟩
  obtain ⟨e0, e1, e2, e3, e4, e5⟩ := idx5 t
  refine ⟨t, flush5_2 t, ?_⟩
  rw [mem_blk5]
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 64 ≤ (i 1).val ∧ (i 1).val < win5_2.index t (1 : Fin 2) * 64 + 64
    omega

/-- The output array after the ten points. -/
theorem final5 (c : Dev nD) : (dat5 V c).arrAt 2 cfg5.N = biased5 (V c main_v74) (V c main_v75) :=
  (dat5 V c).arrAt_eq_of_cover 2 _ (fun t _ => flushed5 V c t) cover5

/-- Region 5: add the bias row. -/
theorem bias5 (c : Dev nD) (p : Fin 50000) (q : Fin 64) :
    ((dat5 V c).arrAt 2 cfg5.N : FVec Ideal S50000x64 .f32) (ix2 p q)
      = FloatOps.addf (F := Ideal) (φ := .f32) ((V c main_v74 : FVec Ideal S50000x64 .f32) (ix2 p q)) ((V c main_v75 : FVec Ideal S1x64 .f32) (ix2 0 q)) := by
  exact congrFun (final5 V c) (ix2 p q)

end Cert.KernelIdeal.RegionBias

end
-- ==== Proof.Aggregate.lean ====
/-
  One graph-convolution aggregation, as a function of its four inputs: a node-feature array h, the two edge-index
  vectors (source and destination, each of 850000 entries: the 800000 given edges followed by one self-loop per
  node) and the edge weights.  Row e of the messages is row src(e) of h — a negative index counted from the end,
  as array indexing does — times the weight of e; the messages are then summed into the rows dst(e) of a zero array.
  Both programs compute their three aggregations with exactly these host operations, so the certificate carries
  each as this one function of what goes in and never opens the gather or the scatter.
-/
import proofs.«178109_j24335284699606_1_alg».proof.Proof.Gen.ReferenceIdeal
import Idealize.ShloMosaic.PureOps.Ideal

noncomputable section

namespace Cert.Aggregate

open Cert.ReferenceIdeal Cert.ReferenceIdeal.Facts₀ Cert.ReferenceIdeal.Facts Idealize.ShloMosaic

/-- An index vector with its negative entries shifted up by the number of nodes, as a column. -/
def wrapped (src : (⟨S850000, .i32⟩ : BufTy).Contents (Elt Ideal)) : (⟨S850000x1, .i32⟩ : BufTy).Contents (Elt Ideal) :=
  broadcastInDim S850000x1 ![0] bcast_S850000_S850000x1_0
    (select (cmpi .slt src (broadcastInDim S850000 ![] bcast_S_S850000 (constantI S_ 32 0#32)))
      (addi src (broadcastInDim S850000 ![] bcast_S_S850000 (constantI S_ 32 50000#32))) src)

/-- The aggregation over rows of 128 columns. -/
def rows128 (h : FVec Ideal S50000x128 .f32) (src dst : (⟨S850000, .i32⟩ : BufTy).Contents (Elt Ideal)) (wt : FVec Ideal S850000 .f32) : FVec Ideal S50000x128 .f32 :=
  Host.scatterAdd scatter_S50000x128_S850000x1_S850000x128_1_0_0_1
    (broadcastInDim S50000x128 ![] bcast_S_S50000x128 (constant (F := Ideal) S_ .f32 0x00000000#32))
    (broadcastInDim S850000x1 ![0] bcast_S850000_S850000x1_0 dst)
    (mulf (Host.gather gather_S50000x128_S850000x1_S850000x128_1_0_n_n_0_1_1128 h (wrapped src))
      (broadcastInDim S850000x128 ![0, 1] bcast_S850000x1_S850000x128_0_1 (broadcastInDim S850000x1 ![0] bcast_S850000_S850000x1_0 wt)))

/-- The aggregation over rows of 64 columns. -/
def rows64 (h : FVec Ideal S50000x64 .f32) (src dst : (⟨S850000, .i32⟩ : BufTy).Contents (Elt Ideal)) (wt : FVec Ideal S850000 .f32) : FVec Ideal S50000x64 .f32 :=
  Host.scatterAdd scatter_S50000x64_S850000x1_S850000x64_1_0_0_1
    (broadcastInDim S50000x64 ![] bcast_S_S50000x64 (constant (F := Ideal) S_ .f32 0x00000000#32))
    (broadcastInDim S850000x1 ![0] bcast_S850000_S850000x1_0 dst)
    (mulf (Host.gather gather_S50000x64_S850000x1_S850000x64_1_0_n_n_0_1_164 h (wrapped src))
      (broadcastInDim S850000x64 ![0, 1] bcast_S850000x1_S850000x64_0_1 (broadcastInDim S850000x1 ![0] bcast_S850000_S850000x1_0 wt)))

end Cert.Aggregate

end
-- ==== Proof.Host0.lean ====
/-
  The first stretch of the kernel's host program, from any starting contents: out of the edge-index array it makes
  the source and destination index vectors (each row of the array followed by the node numbers: the self-loops) and
  the edge weights (the product, over an edge's two ends, of the inverse square root of the larger of the in-degree
  and one).  These are, operation for operation, the reference's stages of the same names.
-/
import proofs.«178109_j24335284699606_1_alg».proof.Proof.Gen.KernelIdeal.Launch
import proofs.«178109_j24335284699606_1_alg».proof.Proof.Gen.ReferenceIdeal.Read
import proofs.«178109_j24335284699606_1_alg».proof.Proof.Aggregate
import Idealize.ShloMosaic.Lib.StableHlo.Run

set_option maxRecDepth 16384

noncomputable section

namespace Cert.KernelIdeal.Host0

open Cert.KernelIdeal Cert.KernelIdeal.Gen Idealize.ShloMosaic Idealize.ShloMosaic.TcCoe Idealize.SL.Sem Idealize.ShloMosaic.StableHlo
open Cert.ReferenceIdeal.Read

-- the buffer contents the stretch starts from: any
variable (W : Valuation τ sig (Elt Ideal))

set_option maxHeartbeats 4000000 in
/-- The source indices: row 0 of the edge-index array, then the node numbers. -/
theorem sources : StableHlo.after hostOps0 W (Proc.devRef .tc main_v3) = val_main_v3 (F := Ideal) (W (Proc.devRef .tc main_arg1)) := by
  after_results
  rfl

set_option maxHeartbeats 4000000 in
/-- The destination indices: row 1 of the edge-index array, then the node numbers. -/
theorem destinations : StableHlo.after hostOps0 W (Proc.devRef .tc main_v6) = val_main_v6 (F := Ideal) (W (Proc.devRef .tc main_arg1)) := by
  after_results
  rfl

set_option maxHeartbeats 4000000 in
/-- The edge weights. -/
theorem weights : StableHlo.after hostOps0 W (Proc.devRef .tc main_v28) = val_main_v28 (F := Ideal) (W (Proc.devRef .tc main_arg1)) := by
  after_results
  rfl

end Cert.KernelIdeal.Host0

end
-- ==== Proof.Host1.lean ====
/-
  The second stretch of the kernel's host program, from any starting contents: it aggregates the product the region
  before it made (gather the rows at the source indices, scale each by its edge's weight, sum into the rows at the
  destination indices) and lays the first bias vector out as one row for the bias region that follows.
-/
import proofs.«178109_j24335284699606_1_alg».proof.Proof.Gen.KernelIdeal.Launch
import proofs.«178109_j24335284699606_1_alg».proof.Proof.Gen.ReferenceIdeal.Read
import proofs.«178109_j24335284699606_1_alg».proof.Proof.Aggregate
import Idealize.ShloMosaic.Lib.StableHlo.Run

set_option maxRecDepth 16384

noncomputable section

namespace Cert.KernelIdeal.Host1

open Cert.KernelIdeal Cert.KernelIdeal.Gen Idealize.ShloMosaic Idealize.ShloMosaic.TcCoe Idealize.SL.Sem Idealize.ShloMosaic.StableHlo
open Cert.ReferenceIdeal.Read

-- the buffer contents the stretch starts from: any
variable (W : Valuation τ sig (Elt Ideal))

set_option maxHeartbeats 4000000 in
/-- The aggregate of the product just made, over the edges. -/
theorem aggregate : StableHlo.after hostOps1 W (Proc.devRef .tc main_v42)
    = Cert.Aggregate.rows128 (W (Proc.devRef .tc main_v29)) (W (Proc.devRef .tc main_v3)) (W (Proc.devRef .tc main_v6)) (W (Proc.devRef .tc main_v28)) := by
  after_results
  rfl

set_option maxHeartbeats 4000000 in
/-- The bias vector laid out as one row. -/
theorem biasRow : StableHlo.after hostOps1 W (Proc.devRef .tc main_v43)
    = shapeCast S1x128 (W (Proc.devRef .tc main_arg3)) shapeCasts_S128_S1x128 := by
  after_results
  rfl

end Cert.KernelIdeal.Host1

end
-- ==== Proof.Host3.lean ====
/-
  The third stretch of the kernel's host program, from any starting contents: it aggregates the product the region
  before it made (gather the rows at the source indices, scale each by its edge's weight, sum into the rows at the
  destination indices) and lays the second bias vector out as one row for the bias region that follows.
-/
import proofs.«178109_j24335284699606_1_alg».proof.Proof.Gen.KernelIdeal.Launch
import proofs.«178109_j24335284699606_1_alg».proof.Proof.Gen.ReferenceIdeal.Read
import proofs.«178109_j24335284699606_1_alg».proof.Proof.Aggregate
import Idealize.ShloMosaic.Lib.StableHlo.Run

set_option maxRecDepth 16384

noncomputable section

namespace Cert.KernelIdeal.Host3

open Cert.KernelIdeal Cert.KernelIdeal.Gen Idealize.ShloMosaic Idealize.ShloMosaic.TcCoe Idealize.SL.Sem Idealize.ShloMosaic.StableHlo
open Cert.ReferenceIdeal.Read

-- the buffer contents the stretch starts from: any
variable (W : Valuation τ sig (Elt Ideal))

set_option maxHeartbeats 4000000 in
/-- The aggregate of the product just made, over the edges. -/
theorem aggregate : StableHlo.after hostOps3 W (Proc.devRef .tc main_v58)
    = Cert.Aggregate.rows64 (W (Proc.devRef .tc main_v45)) (W (Proc.devRef .tc main_v3)) (W (Proc.devRef .tc main_v6)) (W (Proc.devRef .tc main_v28)) := by
  after_results
  rfl

set_option maxHeartbeats 4000000 in
/-- The bias vector laid out as one row. -/
theorem biasRow : StableHlo.after hostOps3 W (Proc.devRef .tc main_v59)
    = shapeCast S1x64 (W (Proc.devRef .tc main_arg5)) shapeCasts_S64_S1x64 := by
  after_results
  rfl

end Cert.KernelIdeal.Host3

end
-- ==== Proof.Host5.lean ====
/-
  The fourth stretch of the kernel's host program, from any starting contents: it aggregates the product the region
  before it made (gather the rows at the source indices, scale each by its edge's weight, sum into the rows at the
  destination indices) and lays the third bias vector out as one row for the bias region that follows.
-/
import proofs.«178109_j24335284699606_1_alg».proof.Proof.Gen.KernelIdeal.Launch
import proofs.«178109_j24335284699606_1_alg».proof.Proof.Gen.ReferenceIdeal.Read
import proofs.«178109_j24335284699606_1_alg».proof.Proof.Aggregate
import Idealize.ShloMosaic.Lib.StableHlo.Run

set_option maxRecDepth 16384

noncomputable section

namespace Cert.KernelIdeal.Host5

open Cert.KernelIdeal Cert.KernelIdeal.Gen Idealize.ShloMosaic Idealize.ShloMosaic.TcCoe Idealize.SL.Sem Idealize.ShloMosaic.StableHlo
open Cert.ReferenceIdeal.Read

-- the buffer contents the stretch starts from: any
variable (W : Valuation τ sig (Elt Ideal))

set_option maxHeartbeats 4000000 in
/-- The aggregate of the product just made, over the edges. -/
theorem aggregate : StableHlo.after hostOps5 W (Proc.devRef .tc main_v74)
    = Cert.Aggregate.rows64 (W (Proc.devRef .tc main_v61)) (W (Proc.devRef .tc main_v3)) (W (Proc.devRef .tc main_v6)) (W (Proc.devRef .tc main_v28)) := by
  after_results
  rfl

set_option maxHeartbeats 4000000 in
/-- The bias vector laid out as one row. -/
theorem biasRow : StableHlo.after hostOps5 W (Proc.devRef .tc main_v75)
    = shapeCast S1x64 (W (Proc.devRef .tc main_arg7)) shapeCasts_S64_S1x64 := by
  after_results
  rfl

end Cert.KernelIdeal.Host5

end
-- ==== Proof.Stages.lean ====
/-
  The kernel's buffers are the reference's stages.

  @main of the kernel walks ten boundaries: four stretches of host operations and six regions.  Reading the
  boundaries in order, each buffer a later step reads holds, as a function of the eight argument arrays, exactly
  what the reference's host program computes at the matching operation:

    the index vectors and the edge weights     (first stretch; the same operations in both programs)
    X · W1                                     (region 0 against the reference's product)
    the aggregate of X · W1                    (second stretch; the same operations)
    H = max (aggregate + b1, 0)                (region 1 against add, then the maximum with zero)
    H · Wmu, its aggregate, plus bmu           (region 2, third stretch, region 3): the first result
    H · Wsig, its aggregate, plus bsig         (region 4, fourth stretch, region 5): the second result

  A product region's array is the host's product of the whole arrays, so there is nothing to compare entry by
  entry; a bias region is compared at an entry (r, n), where the kernel's reshaped bias row [1, n] and the
  reference's broadcast of the bias vector both read the vector's entry n.
-/
import proofs.«178109_j24335284699606_1_alg».proof.Proof.Kept
import proofs.«178109_j24335284699606_1_alg».proof.Proof.RegionMatmul
import proofs.«178109_j24335284699606_1_alg».proof.Proof.RegionMatmul4
import proofs.«178109_j24335284699606_1_alg».proof.Proof.RegionBias
import proofs.«178109_j24335284699606_1_alg».proof.Proof.RegionBias5
import proofs.«178109_j24335284699606_1_alg».proof.Proof.Host0
import proofs.«178109_j24335284699606_1_alg».proof.Proof.Host1
import proofs.«178109_j24335284699606_1_alg».proof.Proof.Host3
import proofs.«178109_j24335284699606_1_alg».proof.Proof.Host5
import proofs.«178109_j24335284699606_1_alg».proof.Proof.Gen.ReferenceIdeal.Read
import Idealize.ShloMosaic.Lib.Pipeline.Value
import Idealize.ShloMosaic.Lib.ValueIdx

set_option maxRecDepth 16384

noncomputable section

namespace Cert.KernelIdeal.Stages

open Cert.KernelIdeal Cert.KernelIdeal.Gen Idealize.ShloMosaic Idealize.ShloMosaic.TcCoe Idealize.ShloMosaic.ValueIdx Idealize.SL.Sem
open Cert.ReferenceIdeal.Read Cert.KernelIdeal.Kept

variable (m : (ℓ : Loc nD τ sig) → Buf (Elt Ideal) ℓ) (ρ : Dev nD → PrngReg)

-- the eight argument arrays as launched, on core c
abbrev x0 (c : Dev nD) := m ((c : Thread nD τ).loc main_arg0)
abbrev x1 (c : Dev nD) := m ((c : Thread nD τ).loc main_arg1)
abbrev x2 (c : Dev nD) := m ((c : Thread nD τ).loc main_arg2)
abbrev x3 (c : Dev nD) := m ((c : Thread nD τ).loc main_arg3)
abbrev x4 (c : Dev nD) := m ((c : Thread nD τ).loc main_arg4)
abbrev x5 (c : Dev nD) := m ((c : Thread nD τ).loc main_arg5)
abbrev x6 (c : Dev nD) := m ((c : Thread nD τ).loc main_arg6)
abbrev x7 (c : Dev nD) := m ((c : Thread nD τ).loc main_arg7)

/-! ## The reference's three aggregates are the one aggregation function of its own stages -/

theorem reference_aggregate1 (a0 : (⟨Cert.ReferenceIdeal.S50000x128, .f32⟩ : BufTy).Contents (Elt Ideal)) (a1 : (⟨Cert.ReferenceIdeal.S2x800000, .i32⟩ : BufTy).Contents (Elt Ideal)) (a2 : (⟨Cert.ReferenceIdeal.S128x128, .f32⟩ : BufTy).Contents (Elt Ideal)) :
    val_main_v42 (F := Ideal) a0 a1 a2
      = Cert.Aggregate.rows128 (val_main_v29 (F := Ideal) a0 a2) (val_main_v3 (F := Ideal) a1) (val_main_v6 (F := Ideal) a1) (val_main_v28 (F := Ideal) a1) := rfl

theorem reference_aggregate2 (a0 : (⟨Cert.ReferenceIdeal.S50000x128, .f32⟩ : BufTy).Contents (Elt Ideal)) (a1 : (⟨Cert.ReferenceIdeal.S2x800000, .i32⟩ : BufTy).Contents (Elt Ideal)) (a2 : (⟨Cert.ReferenceIdeal.S128x128, .f32⟩ : BufTy).Contents (Elt Ideal)) (a3 : (⟨Cert.ReferenceIdeal.S128, .f32⟩ : BufTy).Contents (Elt Ideal)) (a4 : (⟨Cert.ReferenceIdeal.S128x64, .f32⟩ : BufTy).Contents (Elt Ideal)) :
    val_main_v60 (F := Ideal) a0 a1 a2 a3 a4
      = Cert.Aggregate.rows64 (val_main_v47 (F := Ideal) a0 a1 a2 a3 a4) (val_main_v3 (F := Ideal) a1) (val_main_v6 (F := Ideal) a1) (val_main_v28 (F := Ideal) a1) := rfl

theorem reference_aggregate3 (a0 : (⟨Cert.ReferenceIdeal.S50000x128, .f32⟩ : BufTy).Contents (Elt Ideal)) (a1 : (⟨Cert.ReferenceIdeal.S2x800000, .i32⟩ : BufTy).Contents (Elt Ideal)) (a2 : (⟨Cert.ReferenceIdeal.S128x128, .f32⟩ : BufTy).Contents (Elt Ideal)) (a3 : (⟨Cert.ReferenceIdeal.S128, .f32⟩ : BufTy).Contents (Elt Ideal)) (a6 : (⟨Cert.ReferenceIdeal.S128x64, .f32⟩ : BufTy).Contents (Elt Ideal)) :
    val_main_v77 (F := Ideal) a0 a1 a2 a3 a6
      = Cert.Aggregate.rows64 (val_main_v64 (F := Ideal) a0 a1 a2 a3 a6) (val_main_v3 (F := Ideal) a1) (val_main_v6 (F := Ideal) a1) (val_main_v28 (F := Ideal) a1) := rfl

/-! ## First stretch -/

theorem sources (c : Dev nD) : W1 m ρ c (Proc.devRef .tc main_v3) = val_main_v3 (F := Ideal) (x1 m c) := Host0.sources (W0 m ρ c)
theorem destinations (c : Dev nD) : W1 m ρ c (Proc.devRef .tc main_v6) = val_main_v6 (F := Ideal) (x1 m c) := Host0.destinations (W0 m ρ c)
theorem weights (c : Dev nD) : W1 m ρ c (Proc.devRef .tc main_v28) = val_main_v28 (F := Ideal) (x1 m c) := Host0.weights (W0 m ρ c)

/-! ## The first layer -/

/-- Region 0 leaves X · W1. -/
theorem product0 (c : Dev nD) : W2 m ρ c (Proc.devRef .tc main_v29) = val_main_v29 (F := Ideal) (x0 m c) (x2 m c) := by
  refine (W2_arr m ρ c 2).trans ?_
  refine (RegionMatmul.product0 (V1 m ρ) c Cert.ReferenceIdeal.dot_S50000x128_S128x128_S50000x128_1_0_0_1_n_n ⟨rfl, rfl, rfl, rfl, rfl, rfl⟩).trans ?_
  have e0 : (V1 m ρ c main_arg0 : FVec Ideal S50000x128 .f32) = x0 m c := W1_arg0 m ρ c
  have e2 : (V1 m ρ c main_arg2 : FVec Ideal S128x128 .f32) = x2 m c := W1_arg2 m ρ c
  rw [e0, e2]
  rfl

/-- The second stretch aggregates it. -/
theorem aggregate1 (c : Dev nD) : W3 m ρ c (Proc.devRef .tc main_v42) = val_main_v42 (F := Ideal) (x0 m c) (x1 m c) (x2 m c) := by
  refine (Host1.aggregate (W2 m ρ c)).trans ?_
  rw [product0 m ρ c, W2_v3, W2_v6, W2_v28, sources m ρ c, destinations m ρ c, weights m ρ c]
  exact (reference_aggregate1 _ _ _).symm

/-- The first bias vector as the kernel lays it out, one row [1, 128], read at column q. -/
theorem biasRow1 (c : Dev nD) (q : Fin 128) :
    (W3 m ρ c (Proc.devRef .tc main_v43) : FVec Ideal S1x128 .f32) (ix2 0 q) = (x3 m c : FVec Ideal S128 .f32) (ix1 q) := by
  rw [show W3 m ρ c (Proc.devRef .tc main_v43) = _ from Host1.biasRow (W2 m ρ c), W2_arg3]
  exact (shapeCast_addUnit_apply ![128] _ _ _).trans (congrArg _ (funext fun a => by match a with | ⟨0, _⟩ => rfl))

/-- Region 1 leaves the hidden layer H. -/
theorem hidden (c : Dev nD) : W4 m ρ c (Proc.devRef .tc main_v44) = val_main_v46 (F := Ideal) (x0 m c) (x1 m c) (x2 m c) (x3 m c) := by
  refine (W4_arr m ρ c 2).trans ?_
  funext i
  obtain ⟨p, q, rfl⟩ : ∃ (p : Fin 50000) (q : Fin 128), i = ix2 p q := ⟨i 0, i 1, eq_ix2 i⟩
  refine (RegionBias.biasRelu1 (V3 m ρ) c p q).trans ?_
  rw [val_main_v46_apply, val_main_v45_apply, val_main_v44_apply, val_main_v43_apply, val_main_call0_v0_apply, val_main_call0_cst_apply]
  have e : idx_main_v43 (idx_main_v44 (ix2 p q)) = ix1 q := funext fun a => Fin.ext (by match a with | ⟨0, _⟩ => rfl)
  rw [e]
  have e1 : (V3 m ρ c main_v42 : FVec Ideal S50000x128 .f32) = val_main_v42 (F := Ideal) (x0 m c) (x1 m c) (x2 m c) := aggregate1 m ρ c
  have e2 : (V3 m ρ c main_v43 : FVec Ideal S1x128 .f32) (ix2 0 q) = (x3 m c : FVec Ideal S128 .f32) (ix1 q) := biasRow1 m ρ c q
  rw [e1, e2]

/-! ## The first result -/

/-- Region 2 leaves H · Wmu. -/
theorem product2 (c : Dev nD) : W5 m ρ c (Proc.devRef .tc main_v45) = val_main_v47 (F := Ideal) (x0 m c) (x1 m c) (x2 m c) (x3 m c) (x4 m c) := by
  refine (W5_arr m ρ c 2).trans ?_
  refine (RegionMatmul.product2 (V4 m ρ) c Cert.ReferenceIdeal.dot_S50000x128_S128x64_S50000x64_1_0_0_1_n_n ⟨rfl, rfl, rfl, rfl, rfl, rfl⟩).trans ?_
  have e0 : (V4 m ρ c main_v44 : FVec Ideal S50000x128 .f32) = val_main_v46 (F := Ideal) (x0 m c) (x1 m c) (x2 m c) (x3 m c) := hidden m ρ c
  have e4 : (V4 m ρ c main_arg4 : FVec Ideal S128x64 .f32) = x4 m c := W4_arg4 m ρ c
  rw [e0, e4]
  rfl

/-- The third stretch aggregates it. -/
theorem aggregate2 (c : Dev nD) : W6 m ρ c (Proc.devRef .tc main_v58) = val_main_v60 (F := Ideal) (x0 m c) (x1 m c) (x2 m c) (x3 m c) (x4 m c) := by
  refine (Host3.aggregate (W5 m ρ c)).trans ?_
  rw [product2 m ρ c, W5_v3, W5_v6, W5_v28, sources m ρ c, destinations m ρ c, weights m ρ c]
  exact (reference_aggregate2 _ _ _ _ _).symm

theorem biasRow2 (c : Dev nD) (q : Fin 64) :
    (W6 m ρ c (Proc.devRef .tc main_v59) : FVec Ideal S1x64 .f32) (ix2 0 q) = (x5 m c : FVec Ideal S64 .f32) (ix1 q) := by
  rw [show W6 m ρ c (Proc.devRef .tc main_v59) = _ from Host3.biasRow (W5 m ρ c), W5_arg5]
  exact (shapeCast_addUnit_apply ![64] _ _ _).trans (congrArg _ (funext fun a => by match a with | ⟨0, _⟩ => rfl))

/-- Region 3 leaves the first result. -/
theorem result0_at7 (c : Dev nD) : W7 m ρ c (Proc.devRef .tc main_v60) = val_main_v63 (F := Ideal) (x0 m c) (x1 m c) (x2 m c) (x3 m c) (x4 m c) (x5 m c) := by
  refine (W7_arr m ρ c 2).trans ?_
  funext i
  obtain ⟨p, q, rfl⟩ : ∃ (p : Fin 50000) (q : Fin 64), i = ix2 p q := ⟨i 0, i 1, eq_ix2 i⟩
  refine (RegionBias.bias3 (V6 m ρ) c p q).trans ?_
  rw [val_main_v63_apply, val_main_v62_apply, val_main_v61_apply]
  have e : idx_main_v61 (idx_main_v62 (ix2 p q)) = ix1 q := funext fun a => Fin.ext (by match a with | ⟨0, _⟩ => rfl)
  rw [e]
  have e1 : (V6 m ρ c main_v58 : FVec Ideal S50000x64 .f32) = val_main_v60 (F := Ideal) (x0 m c) (x1 m c) (x2 m c) (x3 m c) (x4 m c) := aggregate2 m ρ c
  have e2 : (V6 m ρ c main_v59 : FVec Ideal S1x64 .f32) (ix2 0 q) = (x5 m c : FVec Ideal S64 .f32) (ix1 q) := biasRow2 m ρ c q
  rw [e1, e2]

/-- It is still there after the last stretch and the last two regions. -/
theorem result0 (c : Dev nD) : W10 m ρ c (Proc.devRef .tc main_v60) = val_main_v63 (F := Ideal) (x0 m c) (x1 m c) (x2 m c) (x3 m c) (x4 m c) (x5 m c) :=
  (W10_v60 m ρ c).trans (result0_at7 m ρ c)

/-! ## The second result -/

/-- Region 4 leaves H · Wsig. -/
theorem product4 (c : Dev nD) : W8 m ρ c (Proc.devRef .tc main_v61) = val_main_v64 (F := Ideal) (x0 m c) (x1 m c) (x2 m c) (x3 m c) (x6 m c) := by
  refine (W8_arr m ρ c 2).trans ?_
  refine (RegionMatmul.product4 (V7 m ρ) c Cert.ReferenceIdeal.dot_S50000x128_S128x64_S50000x64_1_0_0_1_n_n ⟨rfl, rfl, rfl, rfl, rfl, rfl⟩).trans ?_
  have e0 : (V7 m ρ c main_v44 : FVec Ideal S50000x128 .f32) = val_main_v46 (F := Ideal) (x0 m c) (x1 m c) (x2 m c) (x3 m c) := (W7_v44 m ρ c).trans (hidden m ρ c)
  have e6 : (V7 m ρ c main_arg6 : FVec Ideal S128x64 .f32) = x6 m c := W7_arg6 m ρ c
  rw [e0, e6]
  rfl

/-- The fourth stretch aggregates it. -/
theorem aggregate3 (c : Dev nD) : W9 m ρ c (Proc.devRef .tc main_v74) = val_main_v77 (F := Ideal) (x0 m c) (x1 m c) (x2 m c) (x3 m c) (x6 m c) := by
  refine (Host5.aggregate (W8 m ρ c)).trans ?_
  rw [product4 m ρ c, W8_v3, W8_v6, W8_v28, sources m ρ c, destinations m ρ c, weights m ρ c]
  exact (reference_aggregate3 _ _ _ _ _).symm

theorem biasRow3 (c : Dev nD) (q : Fin 64) :
    (W9 m ρ c (Proc.devRef .tc main_v75) : FVec Ideal S1x64 .f32) (ix2 0 q) = (x7 m c : FVec Ideal S64 .f32) (ix1 q) := by
  rw [show W9 m ρ c (Proc.devRef .tc main_v75) = _ from Host5.biasRow (W8 m ρ c), W8_arg7]
  exact (shapeCast_addUnit_apply ![64] _ _ _).trans (congrArg _ (funext fun a => by match a with | ⟨0, _⟩ => rfl))

/-- Region 5 leaves the second result. -/
theorem result1 (c : Dev nD) : W10 m ρ c (Proc.devRef .tc main_v76) = val_main_v80 (F := Ideal) (x0 m c) (x1 m c) (x2 m c) (x3 m c) (x6 m c) (x7 m c) := by
  refine (W10_arr m ρ c 2).trans ?_
  funext i
  obtain ⟨p, q, rfl⟩ : ∃ (p : Fin 50000) (q : Fin 64), i = ix2 p q := ⟨i 0, i 1, eq_ix2 i⟩
  refine (RegionBias.bias5 (V9 m ρ) c p q).trans ?_
  rw [val_main_v80_apply, val_main_v79_apply, val_main_v78_apply]
  have e : idx_main_v78 (idx_main_v79 (ix2 p q)) = ix1 q := funext fun a => Fin.ext (by match a with | ⟨0, _⟩ => rfl)
  rw [e]
  have e1 : (V9 m ρ c main_v74 : FVec Ideal S50000x64 .f32) = val_main_v77 (F := Ideal) (x0 m c) (x1 m c) (x2 m c) (x3 m c) (x6 m c) := aggregate3 m ρ c
  have e2 : (V9 m ρ c main_v75 : FVec Ideal S1x64 .f32) (ix2 0 q) = (x7 m c : FVec Ideal S64 .f32) (ix1 q) := biasRow3 m ρ c q
  rw [e1, e2]

end Cert.KernelIdeal.Stages

end
-- ==== Proof.lean ====
/-
  The certificate: a two-layer graph convolution (a hidden layer with the maximum with zero, then two output heads
  that share it), the kernel against its array-library reference, over the extended reals.

  The two programs share every host operation that builds the self-looped edge lists, the symmetric edge weights,
  the row gathers and the scatter sums.  They differ in three places per layer: the kernel forms each dense product
  in a region of ten row blocks (in a narrower float format first, which over the extended reals is no change at
  all) where the reference has one whole-array product; it adds the bias row, and for the hidden layer takes the
  maximum with zero, in a second region of ten row blocks where the reference adds a broadcast of the bias vector
  and calls its own maximum-with-zero.  Block by block these are the same functions of the whole arrays (the two
  region modules), so boundary by boundary the kernel's buffers are the reference's stages (the stages module), and
  the two results agree.  No law of arithmetic beyond that is used, so the finiteness of the inputs is never opened.

  The frames of the two kernel programs are the generated ones; the reference has no kernel, and its frame is its
  generated run with the results dropped.  The idealization rewrote nothing, so there is nothing to preserve.
-/
import proofs.«178109_j24335284699606_1_alg».proof.Defs
import proofs.«178109_j24335284699606_1_alg».proof.Proof.Gen.Kernel
import proofs.«178109_j24335284699606_1_alg».proof.Proof.Gen.Kernel.Frame
import proofs.«178109_j24335284699606_1_alg».proof.Proof.Gen.KernelIdeal
import proofs.«178109_j24335284699606_1_alg».proof.Proof.Gen.KernelIdeal.Frame
import proofs.«178109_j24335284699606_1_alg».proof.Proof.Gen.ReferenceIdeal
import proofs.«178109_j24335284699606_1_alg».proof.Proof.Gen.ReferenceIdeal.Run
import proofs.«178109_j24335284699606_1_alg».proof.Proof.Gen.ReferenceIdeal.Read
import proofs.«178109_j24335284699606_1_alg».proof.Proof.Gen.Pre_finite_inputs
import proofs.«178109_j24335284699606_1_alg».proof.Proof.KernelRun
import proofs.«178109_j24335284699606_1_alg».proof.Proof.Stages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's generated run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the reference's two last stages of the kernel's argument arrays: the kernel by its run
    and the stages module, the reference by its generated run read as stages, its arguments being the kernel's. -/
theorem algebraic : Cert.algebraic_KernelIdeal_ReferenceIdeal := by
  intro m ρ m' ρ' _ hagree
  refine ⟨fun c => Cert.ReferenceIdeal.Read.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Stages.result0 m ρ c), (h c).2.1.trans (Cert.KernelIdeal.Stages.result1 m ρ c), (h c).2.2⟩)
      (Cert.KernelIdeal.Results.run (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨h0, h1, h2, h3, h4, h5, -, -⟩ := hagree c
      rw [Cert.ReferenceIdeal.Read.val_main_v63_eq, h0, h1, h2, h3, h4, h5]
    · obtain ⟨h0, h1, h2, h3, -, -, h6, h7⟩ := hagree c
      rw [Cert.ReferenceIdeal.Read.val_main_v80_eq, h0, h1, h2, h3, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
